-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x16x128x128 : Shape := ⟨5, ![32, 3, 16, 128, 128]⟩
abbrev S_ : Shape := ⟨0, ![]⟩

class Facts : Prop where
  bcast_S_S32x3x16x128x128 : S_.BroadcastsInDim S32x3x16x128x128 (![] : Fin 0 → Fin S32x3x16x128x128.rank)
  reducesTo_S32x3x16x128x128_S_d0_1_2_3_4 : S32x3x16x128x128.ReducesTo [0, 1, 2, 3, 4] S_
  h_S_ : 0 < S_.numel

variable [Facts]

def fn {F : FTy → Type} [FloatOps F] (main_arg0 : FVec F S32x3x16x128x128 .f32) (main_arg1 : FVec F S32x3x16x128x128 .f32) : IVec S_ 1 :=
  let main_v0 : FVec F S32x3x16x128x128 .f32 := Host.absf main_arg0
  let main_cst : FVec F S_ .f32 := constant S_ .f32 0x7F800000#32
  let main_v1 : FVec F S32x3x16x128x128 .f32 := broadcastInDim S32x3x16x128x128 ![] bcast_S_S32x3x16x128x128 main_cst
  let main_v2 : IVec S32x3x16x128x128 1 := cmpf .olt main_v0 main_v1
  let main_c : IVec S_ 1 := constantI S_ 1 1#1
  let main_v3 : IVec S_ 1 := (fun x v => Host.reduce IntOp.andi x v reducesTo_S32x3x16x128x128_S_d0_1_2_3_4 h_S_) main_v2 main_c
  let main_v4 : FVec F S32x3x16x128x128 .f32 := Host.absf main_arg1
  let main_cst_0 : FVec F S_ .f32 := constant S_ .f32 0x7F800000#32
  let main_v5 : FVec F S32x3x16x128x128 .f32 := broadcastInDim S32x3x16x128x128 ![] bcast_S_S32x3x16x128x128 main_cst_0
  let main_v6 : IVec S32x3x16x128x128 1 := cmpf .olt main_v4 main_v5
  let main_c_1 : IVec S_ 1 := constantI S_ 1 1#1
  let main_v7 : IVec S_ 1 := (fun x v => Host.reduce IntOp.andi x v reducesTo_S32x3x16x128x128_S_d0_1_2_3_4 h_S_) main_v6 main_c_1
  let main_v8 : IVec S_ 1 := andi main_v3 main_v7
  main_v8
-- ==== Kernel.lean ====
abbrev S32x3x16x128x128 : Shape := ⟨5, ![32, 3, 16, 128, 128]⟩
abbrev S1536x16384 : Shape := ⟨2, ![1536, 16384]⟩
abbrev S1x1 : Shape := ⟨2, ![1, 1]⟩
abbrev S128x16384 : Shape := ⟨2, ![128, 16384]⟩
abbrev S1x128x16384 : Shape := ⟨3, ![1, 128, 16384]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S32x3x16x128x128, .f32⟩
  | .hbm, ⟨1, _⟩ => ⟨S32x3x16x128x128, .f32⟩
  | .hbm, ⟨2, _⟩ => ⟨S1536x16384, .f32⟩
  | .hbm, ⟨3, _⟩ => ⟨S1536x16384, .f32⟩
  | .hbm, ⟨4, _⟩ => ⟨S1x1, .f32⟩
  | .hbm, ⟨5, _⟩ => ⟨S_, .f32⟩
  | .local _ .vmem, ⟨0, _⟩ => ⟨S128x16384, .f32⟩
  | .local _ .vmem, ⟨1, _⟩ => ⟨S128x16384, .f32⟩
  | .local _ .vmem, ⟨2, _⟩ => ⟨S128x16384, .f32⟩
  | .local _ .vmem, ⟨3, _⟩ => ⟨S128x16384, .f32⟩
  | .local _ .vmem, ⟨4, _⟩ => ⟨S1x1, .f32⟩
  | _, _ => ⟨S32x3x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_7 : BitVec 32 := 0#32
  let v26 : BitVec 1 := Scalar.cmpi .ne v25 c0_i32_7
  v26

def k0_cond2 (i : grid0.Coords) : BitVec 1 :=
  let arg0 : BitVec 32 := BitVec.ofNat 32 (i 0).val
  let c0_i32_8 : BitVec 32 := 0#32
  let v27 : BitVec 1 := Scalar.cmpi .ne arg0 c0_i32_8
  let v28 : BitVec 32 := Scalar.extui v27
  let c0_i32_9 : BitVec 32 := 0#32
  let v29 : BitVec 1 := Scalar.cmpi .ne v28 c0_i32_9
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S32x3x16x128x128_S1536x16384 : S32x3x16x128x128.ShapeCasts S1536x16384
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  shapeCasts_S128x16384_S1x128x16384 : S128x16384.ShapeCasts S1x128x16384
  reduces_S1x128x16384_S1 : S1x128x16384.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S1536x16384.size a
  hwx0_0 : ∀ i : grid0.Coords, EltTy.bits .f32 = 32 ∨ (Rect.block (s := S1536x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S1536x16384.size a
  hwx0_1 : ∀ i : grid0.Coords, EltTy.bits .f32 = 32 ∨ (Rect.block (s := S1536x16384) S128x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S32x3x16x128x128 : Shape := ⟨5, ![32, 3, 16, 128, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32x3x16x128x128, .f32⟩
  | .hbm, ⟨1, _⟩ => ⟨S32x3x16x128x128, .f32⟩
  | .hbm, ⟨2, _⟩ => ⟨S_, .f32⟩
  | .hbm, ⟨3, _⟩ => ⟨S32x3x16x128x128, .f32⟩
  | .hbm, ⟨4, _⟩ => ⟨S32x3x16x128x128, .f32⟩
  | .hbm, ⟨5, _⟩ => ⟨S_, .f32⟩
  | .hbm, ⟨6, _⟩ => ⟨S32x3x16x128x128, .f32⟩
  | .hbm, ⟨7, _⟩ => ⟨S32x3x16x128x128, .f32⟩
  | .hbm, ⟨8, _⟩ => ⟨S32x3x16x128x128, .f32⟩
  | .hbm, ⟨9, _⟩ => ⟨S_, .f32⟩
  | .hbm, ⟨10, _⟩ => ⟨S32x3x16x128x128, .f32⟩
  | .hbm, ⟨11, _⟩ => ⟨S32x3x16x128x128, .f32⟩
  | .hbm, ⟨12, _⟩ => ⟨S32x3x16x128x128, .f32⟩
  | .hbm, ⟨13, _⟩ => ⟨S_, .f32⟩
  | .hbm, ⟨14, _⟩ => ⟨S32x3x16x128x128, .f32⟩
  | .hbm, ⟨15, _⟩ => ⟨S32x3x16x128x128, .f32⟩
  | .hbm, ⟨16, _⟩ => ⟨S32x3x16x128x128, .f32⟩
  | .hbm, ⟨17, _⟩ => ⟨S32x3x16x128x128, .f32⟩
  | .hbm, ⟨18, _⟩ => ⟨S32x3x16x128x128, .f32⟩
  | .hbm, ⟨19, _⟩ => ⟨S32x3x16x128x128, .f32⟩
  | .hbm, ⟨20, _⟩ => ⟨S32x3x16x128x128, .f32⟩
  | .hbm, ⟨21, _⟩ => ⟨S_, .f32⟩
  | .hbm, ⟨22, _⟩ => ⟨S_, .f32⟩
  | _, _ => ⟨S32x3x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S32x3x16x128x128 : S_.BroadcastsInDim S32x3x16x128x128 (![] : Fin 0 → Fin S32x3x16x128x128.rank)
  reducesTo_S32x3x16x128x128_S_d0_1_2_3_4 : S32x3x16x128x128.ReducesTo [0, 1, 2, 3, 4] S_
  h_S_ : 0 < S_.numel

variable [Facts₀]

class Facts : Prop extends Facts₀ where

variable [Facts]
-- ==== Proof.BodyBits.lean ====
/-
  The accumulating body of the one pallas_call, point by point.

  At grid point t the body reads its two input blocks x, y (128 rows of the 1536 x 16384 re-laid arguments),
  forms the block's partial sum  s(x, y) = sum over the block of  x * log(x / y + e) + (1 - x) * log((1 - x) / (1 - y) + e),
  and keeps a running total in the one-element output block: at the first point the block is set to s, at every later
  point s is added to what the point before left there. The output block is written back only after the last point.

  This module names what the output block holds after each point (`accAt`: the running total, by recursion on the
  point), gives the pipeline its proof data, proves the body's two runs (first point / later point) and the body
  obligation, and concludes the program's run with every array named, and its frame.
-/
import proofs.«154878_g21354577395725_cont_8to1_745_3_alg».proof.Proof.Gen.Kernel.Frame
import proofs.«154878_g21354577395725_cont_8to1_745_3_alg».proof.Proof.Gen.Kernel.Skeleton
import Idealize.ShloMosaic.Lib.Pipeline.Value
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches, over the grid -/

/-- The body's first conditional (`program_id == 0`) is taken; -/
abbrev isFirst (i : grid0.Coords) : Prop := k0_cond1 i = 1#1
/-- its second (`program_id != 0`) is taken. -/
abbrev isLater (i : grid0.Coords) : Prop := k0_cond2 i = 1#1

/-- The first holds at point 0 only, -/
theorem isFirst_iff : ∀ t : Fin cfg0.N, isFirst (grid0.coords t) ↔ t.val = 0 :=
  (by decide +kernel : ∀ t : Fin grid0.N, isFirst (grid0.coords t) ↔ t.val = 0)
/-- the second at every other point. -/
theorem isLater_iff : ∀ t : Fin cfg0.N, isLater (grid0.coords t) ↔ t.val ≠ 0 :=
  (by decide +kernel : ∀ t : Fin grid0.N, isLater (grid0.coords t) ↔ t.val ≠ 0)

/-- No window is idle anywhere: the inputs never, and the output is stored at every point (one of the two
    conditionals is always taken). -/
theorem live0 : ∀ i : grid0.Coords, cfg0.idle 0 i = false := fun _ => rfl
theorem live1 : ∀ i : grid0.Coords, cfg0.idle 1 i = false := fun _ => rfl
theorem live2 : ∀ i : grid0.Coords, cfg0.idle 2 i = false := by decide +kernel

/-! ## The staging memrefs the pipeline calls the body with -/

abbrev ms0 (t : Fin cfg0.N) : Memref sig .tc .vmem S128x16384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x16384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-! ## The body's two runs -/

theorem zero2 : (![0, 0] : Fin 2 → Nat) = fun _ => 0 := by
  funext a; fin_cases a <;> rfl

set_option maxHeartbeats 1000000 in
/-- AT THE FIRST POINT: from the two input blocks `x0`, `x1` and the output block at anything, the body leaves the
    output block at the block's partial sum `k0_pay1 x0 x1` (its one store covers the one-element block), the inputs as
    they were. -/
theorem run_first (c : Dev nD) (i : grid0.Coords) (arg1 : Memref sig .tc .vmem S128x16384 .f32) (harg1 : arg1.IsWhole)
    (arg2 : Memref sig .tc .vmem S128x16384 .f32) (harg2 : arg2.IsWhole) (arg3 : Memref sig .tc .vmem S1x1 .f32) (harg3 : arg3.IsWhole)
    (hc0 : isFirst i) (hc1 : ¬isLater i) (x0 : Vec F S128x16384 .f32) (x1 : Vec F S128x16384 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ owns (c : Thread nD τ) arg3 fullShare (k0_pay1 x0 x1)) -∗ K ⟨⟩))
          ⊢ wp frame (wpE (defs₀ (F := F)) Variants.none c none) E (cc0__kl_block i arg1 harg1 arg2 harg2 arg3 harg3) K := by
    intro E K
    simp only [cc0__kl_block_eq_skeleton]; unfold cc0__kl_block_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero2 inb_S1x1_S1x1_0_0 y⟩),
      View.canon_unit_zero zero2]
    simp only [View.readAt_eq_ld, harg1.read_unread, harg2.read_unread, View.ld_unit_zero (S := S128x16384) zero2]

set_option maxHeartbeats 1000000 in
/-- AT A LATER POINT: from the two input blocks and the output block at the running total `xo`, the body leaves the
    output block at `xo` plus the block's partial sum (`k0_pay2 x0 x1 xo`), the inputs as they were. -/
theorem run_later (c : Dev nD) (i : grid0.Coords) (arg1 : Memref sig .tc .vmem S128x16384 .f32) (harg1 : arg1.IsWhole)
    (arg2 : Memref sig .tc .vmem S128x16384 .f32) (harg2 : arg2.IsWhole) (arg3 : Memref sig .tc .vmem S1x1 .f32) (harg3 : arg3.IsWhole)
    (hc0 : ¬isFirst i) (hc1 : isLater i) (x0 : Vec F S128x16384 .f32) (x1 : Vec F S128x16384 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ owns (c : Thread nD τ) arg3 fullShare (k0_pay2 x0 x1 xo)) -∗ K ⟨⟩))
          ⊢ wp frame (wpE (defs₀ (F := F)) Variants.none c none) E (cc0__kl_block i arg1 harg1 arg2 harg2 arg3 harg3) K := by
    intro E K
    simp only [cc0__kl_block_eq_skeleton]; unfold cc0__kl_block_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero2 inb_S1x1_S1x1_0_0 y⟩),
      View.canon_unit_zero zero2]
    simp only [View.readAt_eq_ld, harg1.read_unread, harg2.read_unread, harg3.read_unread,
      View.ld_unit_zero (S := S128x16384) zero2, View.ld_unit_zero (S := S1x1) zero2]

/-! ## What the output block holds after each point -/

/-- THE RUNNING TOTAL. What the output's one-element staging block holds after the body at point `n`: at the first
    point the block's partial sum of that point's input blocks; at a later point what the point before left, plus that
    point's partial sum (the block is not written back between points, so the body finds there what it left). -/
def accAt (c : Dev nD) : (n : ℕ) → n < cfg0.N → Vec F S1x1 .f32
  | 0, hn => k0_pay1 (iblk m c 0 ⟨0, hn⟩) (iblk m c 1 ⟨0, hn⟩)
  | n + 1, hn => k0_pay2 (iblk m c 0 ⟨n + 1, hn⟩) (iblk m c 1 ⟨n + 1, hn⟩) (accAt c n (Nat.lt_of_succ_lt hn))

/-- The running total at the first point, -/
theorem accAt_first (c : Dev nD) (t : Fin cfg0.N) (h0 : t.val = 0) :
    accAt m c t.val t.isLt = k0_pay1 (iblk m c 0 t) (iblk m c 1 t) := by
  obtain ⟨n, hn⟩ := t
  cases n with
  | zero => rfl
  | succ n => exact absurd h0 (Nat.succ_ne_zero n)

/-- and at a later one, over the point before. -/
theorem accAt_later (c : Dev nD) (t : Fin cfg0.N) (h0 : t.val ≠ 0) :
    accAt m c t.val t.isLt
      = k0_pay2 (iblk m c 0 t) (iblk m c 1 t) (accAt m c (t.val - 1) (Nat.lt_of_le_of_lt (Nat.sub_le _ _) t.isLt)) := by
  obtain ⟨n, hn⟩ := t
  cases n with
  | zero => exact absurd rfl h0
  | succ n => rfl

/-! ## The pipeline's proof data -/

/-- The proof data of the one pipeline on core `c`: the arrays as the region finds them; after the body at point `t`
    each input's buffer still at its block and the output's at the running total; the invariant the scoped rest and the
    generator register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later point the output's staging buffer holds the running total the point before left: the block is written
    back after the last point only, and the window is never idle. -/
theorem before2_later (c : Dev nD) (t : Fin cfg0.N) (h0 : t.val ≠ 0) (d) :
    (dats m 0 c).before 2 t d = accAt m c (t.val - 1) (Nat.lt_of_le_of_lt (Nat.sub_le _ _) t.isLt) := by
  have hN : t.val < 12 := lt_of_lt_of_eq t.isLt (show cfg0.N = 12 from N_0)
  rw [Dat.before_out_kept _ 2 rfl t h0 (Bool.eq_false_iff.mpr fun h => by have := (flush0_2 _).mp h; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun t => live2 _

set_option maxHeartbeats 800000 in
/-- The body at any point: the inputs' buffers hold their blocks; at the first point the first run applies, the output's
    buffer at anything; at a later point the second, the output's buffer at the running total of the point before; the
    invariant passes through unread, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  by_cases h0 : t.val = 0
  · rw [accAt_first m c t h0]
    iintro ⟨HΦ, Ho, ⟨%d0, H0⟩, ⟨%d1, H1⟩, ⟨%d2, H2⟩⟩
    iapply ((run_first c (grid0.coords t) _ _ _ _ _ _ ((isFirst_iff t).mpr h0) (fun h => (isLater_iff t).mp h h0) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later m c t h0]
    simp only [before2_later m c t h0]
    iintro ⟨HΦ, Ho, ⟨%d0, H0⟩, ⟨%d1, H1⟩, ⟨%d2, H2⟩⟩
    iapply ((run_later c (grid0.coords t) _ _ _ _ _ _ (fun h => h0 ((isFirst_iff t).mp h)) ((isLater_iff t).mpr h0) (iblk m c 0 t) (iblk m c 1 t) _) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    write-backs leave of the proof data (the output's array: the running total after the last point) and every other
    unscoped buffer at what the host operation after the region makes of those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs and its argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.lean ====
/-
  The accumulating body of the one pallas_call, point by point.

  At grid point t the body reads its two input blocks x, y (128 rows of the 1536 x 16384 re-laid arguments),
  forms the block's partial sum  s(x, y) = sum over the block of  x * log(x / y + e) + (1 - x) * log((1 - x) / (1 - y) + e),
  and keeps a running total in the one-element output block: at the first point the block is set to s, at every later
  point s is added to what the point before left there. The output block is written back only after the last point.

  This module names what the output block holds after each point (`accAt`: the running total, by recursion on the
  point), gives the pipeline its proof data, proves the body's two runs (first point / later point) and the body
  obligation, and concludes the program's run with every array named, and its frame.
-/
import proofs.«154878_g21354577395725_cont_8to1_745_3_alg».proof.Proof.Gen.KernelIdeal.Frame
import proofs.«154878_g21354577395725_cont_8to1_745_3_alg».proof.Proof.Gen.KernelIdeal.Skeleton
import Idealize.ShloMosaic.Lib.Pipeline.Value
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches, over the grid -/

/-- The body's first conditional (`program_id == 0`) is taken; -/
abbrev isFirst (i : grid0.Coords) : Prop := k0_cond1 i = 1#1
/-- its second (`program_id != 0`) is taken. -/
abbrev isLater (i : grid0.Coords) : Prop := k0_cond2 i = 1#1

/-- The first holds at point 0 only, -/
theorem isFirst_iff : ∀ t : Fin cfg0.N, isFirst (grid0.coords t) ↔ t.val = 0 :=
  (by decide +kernel : ∀ t : Fin grid0.N, isFirst (grid0.coords t) ↔ t.val = 0)
/-- the second at every other point. -/
theorem isLater_iff : ∀ t : Fin cfg0.N, isLater (grid0.coords t) ↔ t.val ≠ 0 :=
  (by decide +kernel : ∀ t : Fin grid0.N, isLater (grid0.coords t) ↔ t.val ≠ 0)

/-- No window is idle anywhere: the inputs never, and the output is stored at every point (one of the two
    conditionals is always taken). -/
theorem live0 : ∀ i : grid0.Coords, cfg0.idle 0 i = false := fun _ => rfl
theorem live1 : ∀ i : grid0.Coords, cfg0.idle 1 i = false := fun _ => rfl
theorem live2 : ∀ i : grid0.Coords, cfg0.idle 2 i = false := by decide +kernel

/-! ## The staging memrefs the pipeline calls the body with -/

abbrev ms0 (t : Fin cfg0.N) : Memref sig .tc .vmem S128x16384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x16384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-! ## The body's two runs -/

theorem zero2 : (![0, 0] : Fin 2 → Nat) = fun _ => 0 := by
  funext a; fin_cases a <;> rfl

set_option maxHeartbeats 1000000 in
/-- AT THE FIRST POINT: from the two input blocks `x0`, `x1` and the output block at anything, the body leaves the
    output block at the block's partial sum `k0_pay1 x0 x1` (its one store covers the one-element block), the inputs as
    they were. -/
theorem run_first (c : Dev nD) (i : grid0.Coords) (arg1 : Memref sig .tc .vmem S128x16384 .f32) (harg1 : arg1.IsWhole)
    (arg2 : Memref sig .tc .vmem S128x16384 .f32) (harg2 : arg2.IsWhole) (arg3 : Memref sig .tc .vmem S1x1 .f32) (harg3 : arg3.IsWhole)
    (hc0 : isFirst i) (hc1 : ¬isLater i) (x0 : Vec F S128x16384 .f32) (x1 : Vec F S128x16384 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ owns (c : Thread nD τ) arg3 fullShare (k0_pay1 x0 x1)) -∗ K ⟨⟩))
          ⊢ wp frame (wpE (defs₀ (F := F)) Variants.none c none) E (cc0__kl_block i arg1 harg1 arg2 harg2 arg3 harg3) K := by
    intro E K
    simp only [cc0__kl_block_eq_skeleton]; unfold cc0__kl_block_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero2 inb_S1x1_S1x1_0_0 y⟩),
      View.canon_unit_zero zero2]
    simp only [View.readAt_eq_ld, harg1.read_unread, harg2.read_unread, View.ld_unit_zero (S := S128x16384) zero2]

set_option maxHeartbeats 1000000 in
/-- AT A LATER POINT: from the two input blocks and the output block at the running total `xo`, the body leaves the
    output block at `xo` plus the block's partial sum (`k0_pay2 x0 x1 xo`), the inputs as they were. -/
theorem run_later (c : Dev nD) (i : grid0.Coords) (arg1 : Memref sig .tc .vmem S128x16384 .f32) (harg1 : arg1.IsWhole)
    (arg2 : Memref sig .tc .vmem S128x16384 .f32) (harg2 : arg2.IsWhole) (arg3 : Memref sig .tc .vmem S1x1 .f32) (harg3 : arg3.IsWhole)
    (hc0 : ¬isFirst i) (hc1 : isLater i) (x0 : Vec F S128x16384 .f32) (x1 : Vec F S128x16384 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ owns (c : Thread nD τ) arg3 fullShare (k0_pay2 x0 x1 xo)) -∗ K ⟨⟩))
          ⊢ wp frame (wpE (defs₀ (F := F)) Variants.none c none) E (cc0__kl_block i arg1 harg1 arg2 harg2 arg3 harg3) K := by
    intro E K
    simp only [cc0__kl_block_eq_skeleton]; unfold cc0__kl_block_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero2 inb_S1x1_S1x1_0_0 y⟩),
      View.canon_unit_zero zero2]
    simp only [View.readAt_eq_ld, harg1.read_unread, harg2.read_unread, harg3.read_unread,
      View.ld_unit_zero (S := S128x16384) zero2, View.ld_unit_zero (S := S1x1) zero2]

/-! ## What the output block holds after each point -/

/-- THE RUNNING TOTAL. What the output's one-element staging block holds after the body at point `n`: at the first
    point the block's partial sum of that point's input blocks; at a later point what the point before left, plus that
    point's partial sum (the block is not written back between points, so the body finds there what it left). -/
def accAt (c : Dev nD) : (n : ℕ) → n < cfg0.N → Vec F S1x1 .f32
  | 0, hn => k0_pay1 (iblk m c 0 ⟨0, hn⟩) (iblk m c 1 ⟨0, hn⟩)
  | n + 1, hn => k0_pay2 (iblk m c 0 ⟨n + 1, hn⟩) (iblk m c 1 ⟨n + 1, hn⟩) (accAt c n (Nat.lt_of_succ_lt hn))

/-- The running total at the first point, -/
theorem accAt_first (c : Dev nD) (t : Fin cfg0.N) (h0 : t.val = 0) :
    accAt m c t.val t.isLt = k0_pay1 (iblk m c 0 t) (iblk m c 1 t) := by
  obtain ⟨n, hn⟩ := t
  cases n with
  | zero => rfl
  | succ n => exact absurd h0 (Nat.succ_ne_zero n)

/-- and at a later one, over the point before. -/
theorem accAt_later (c : Dev nD) (t : Fin cfg0.N) (h0 : t.val ≠ 0) :
    accAt m c t.val t.isLt
      = k0_pay2 (iblk m c 0 t) (iblk m c 1 t) (accAt m c (t.val - 1) (Nat.lt_of_le_of_lt (Nat.sub_le _ _) t.isLt)) := by
  obtain ⟨n, hn⟩ := t
  cases n with
  | zero => exact absurd rfl h0
  | succ n => rfl

/-! ## The pipeline's proof data -/

/-- The proof data of the one pipeline on core `c`: the arrays as the region finds them; after the body at point `t`
    each input's buffer still at its block and the output's at the running total; the invariant the scoped rest and the
    generator register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later point the output's staging buffer holds the running total the point before left: the block is written
    back after the last point only, and the window is never idle. -/
theorem before2_later (c : Dev nD) (t : Fin cfg0.N) (h0 : t.val ≠ 0) (d) :
    (dats m 0 c).before 2 t d = accAt m c (t.val - 1) (Nat.lt_of_le_of_lt (Nat.sub_le _ _) t.isLt) := by
  have hN : t.val < 12 := lt_of_lt_of_eq t.isLt (show cfg0.N = 12 from N_0)
  rw [Dat.before_out_kept _ 2 rfl t h0 (Bool.eq_false_iff.mpr fun h => by have := (flush0_2 _).mp h; dsimp only at this; omega)
    live2 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun t => live2 _

set_option maxHeartbeats 800000 in
/-- The body at any point: the inputs' buffers hold their blocks; at the first point the first run applies, the output's
    buffer at anything; at a later point the second, the output's buffer at the running total of the point before; the
    invariant passes through unread, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  by_cases h0 : t.val = 0
  · rw [accAt_first m c t h0]
    iintro ⟨HΦ, Ho, ⟨%d0, H0⟩, ⟨%d1, H1⟩, ⟨%d2, H2⟩⟩
    iapply ((run_first c (grid0.coords t) _ _ _ _ _ _ ((isFirst_iff t).mpr h0) (fun h => (isLater_iff t).mp h h0) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later m c t h0]
    simp only [before2_later m c t h0]
    iintro ⟨HΦ, Ho, ⟨%d0, H0⟩, ⟨%d1, H1⟩, ⟨%d2, H2⟩⟩
    iapply ((run_later c (grid0.coords t) _ _ _ _ _ _ (fun h => h0 ((isFirst_iff t).mp h)) ((isLater_iff t).mpr h0) (iblk m c 0 t) (iblk m c 1 t) _) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    write-backs leave of the proof data (the output's array: the running total after the last point) and every other
    unscoped buffer at what the host operation after the region makes of those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs and its argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelValue.lean ====
/-
  What the idealized kernel's program returns, named.

  The output block (one element) is written back once, after the last grid point, so the one-element result array ends
  holding the running total after point 11; the host operation after the region re-lays that 1 x 1 array as the rank-0
  result. Hence the program's run, with the result named: the running total after the last point.
-/
import proofs.«154878_g21354577395725_cont_8to1_745_3_alg».proof.Proof.BodyIdeal
import Idealize.ShloMosaic.Lib.Pipeline.Value
import Idealize.ShloMosaic.Lib.StableHlo.Run
import Idealize.ShloMosaic.Lib.ValueIdx

set_option maxRecDepth 16384

noncomputable section

namespace Cert.KernelIdeal.RunValue

open Cert.KernelIdeal Cert.KernelIdeal.Gen Cert.KernelIdeal.Body
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The one-element shape has one index. -/
theorem idx_eq (a b : S1x1.Idx) : a = b := by
  have h0 : a 0 = b 0 := Fin.ext (by
    have := Idealize.ShloMosaic.ValueIdx.idx2_lt0 a; have := Idealize.ShloMosaic.ValueIdx.idx2_lt0 b; omega)
  have h1 : a 1 = b 1 := Fin.ext (by
    have := Idealize.ShloMosaic.ValueIdx.idx2_lt1 a; have := Idealize.ShloMosaic.ValueIdx.idx2_lt1 b; omega)
  funext d
  match d with
  | ⟨0, _⟩ => exact h0
  | ⟨1, _⟩ => exact h1

/-- Its one index. -/
abbrev i00 : S1x1.Idx := Idealize.ShloMosaic.ValueIdx.ix2 (0 : Fin 1) (0 : Fin 1)

/-- The last grid point. -/
abbrev tLast : Fin cfg0.N := t0_11

/-- The running total after the last point. -/
abbrev total (c : Dev nD) : Vec F S1x1 .f32 := accAt m c 11 (by decide)

/-- THE RESULT ARRAY after the run: only the last point writes the block back, its block is the whole one-element array,
    and what it writes is what the body left there, the running total. -/
theorem final2 (c : Dev nD) : (dats m 0 c).arrAt 2 cfg0.N = total m c := by
  refine (dats m 0 c).arrAt_eq_of_cover 2 _ (fun t hf => ?_) (fun i => ⟨tLast, (flush0_2 tLast).mpr rfl, ?_⟩)
  · have h11 : t.val = 11 := by
      have h := (flush0_2 t).mp hf
      have hN : t.val < 12 := lt_of_lt_of_eq t.isLt (show cfg0.N = 12 from N_0)
      omega
    obtain ⟨n, hn⟩ := t
    dsimp only at h11
    subst h11
    funext y
    rw [View.read_apply]
    show accAt m c 11 _ y = accAt m c 11 _ _
    exact congrArg _ (idx_eq _ _)
  · have h := ((cfg0.win 2).blk tLast).view.emb_mem_set i00
    exact (idx_eq _ i) ▸ h

/-- The host operation after the region re-lays the 1 x 1 result as the rank-0 one: the same one entry. -/
theorem tail_v3 (c : Dev nD) :
    Pipeline.afterTail₀ cfgs (dats m) 0 (V0 m) [hostOps1] c main_v3 = (fun _ => total m c i00 : S_.Idx → Elt F .f32) := by
  unfold Pipeline.afterTail₀
  show StableHlo.after hostOps1 _ (Proc.devRef .tc main_v3) = _
  after_results
  funext i
  show shapeCast S_ (Pipeline.withArrays spec0 c (V0 m c) (fun w => (dats m 0 c).arrAt w cfg0.N) (Proc.devRef .tc main_v2)) shapeCasts_S1x1_S_ i = _
  rw [show Pipeline.withArrays spec0 c (V0 m c) (fun w => (dats m 0 c).arrAt w cfg0.N) (Proc.devRef .tc main_v2) = total m c from
    (Pipeline.withArrays_arr spec0 launch0.win.arr_inj c _ _ 2).trans (final2 m c)]
  unfold shapeCast
  exact congrArg _ (idx_eq _ _)

/-- THE RUN, READ: every weakly fair execution terminates with the result at the running total after the last point and
    the arguments unchanged. -/
theorem run : θ_run defs (onTc (τ := τ) (main (F := F))) ⟨m, fun _ => 0, ρ⟩ fun r => ∀ c : Dev nD,
      r.2.mem ((c.tc : Thread nD τ).loc main_v3) = (fun _ => total m c i00 : S_.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.SumLaw.lean ====
/-
  The mathematics of the claim, with no program in sight.

  Both programs compute, over the extended reals, the total over all 25,165,824 element pairs (p, q) of the two arguments of
      kl p q = p * log (p / q + e) + (1 - p) * log ((1 - p) / (1 - q) + e),
  where `1` and `e` are the values of two float literals that both programs spell with the same words. The reference sums
  over the rank-5 index set at once; the kernel re-lays each argument as 1536 rows of 16384 (same row-major order),
  sums each block of 128 rows, and adds the twelve block sums one after the other. Addition of extended reals is
  commutative and associative (with `⊥ + ⊤ = ⊥`), so no finiteness is needed: the two are one sum, regrouped.

  Here: the summand `kl`; a sum over the re-laid index set is the sum over the original one (re-laying is a bijection of
  index sets); a sum over 1536 rows is the sum over twelve blocks of 128 rows; and a running total that starts at the
  first term and adds one term per step is the sum of the terms.
-/
import Idealize.ShloMosaic.Lib.ValueIdx
import Idealize.ShloMosaic.PureOps.Ideal

noncomputable section

open scoped BigOperators

namespace Cert.SumLaw

open Idealize.ShloMosaic Idealize.ShloMosaic.ValueIdx

/-- The literal `1.0`, as both programs spell it. -/
abbrev one : EReal := Ideal.ofBits .f32 0x3F800000#32
/-- The literal `1e-10` (rounded to f32), as both programs spell it. -/
abbrev eps : EReal := Ideal.ofBits .f32 0x2EDBE6FF#32

/-- The Bernoulli Kullback–Leibler term of one pair, exactly as both programs compute it on the extended reals. -/
def kl (p q : EReal) : EReal :=
  p * Ideal.log (Ideal.div p q + eps) + (one - p) * Ideal.log (Ideal.div (one - p) (one - q) + eps)

/-- The arguments' shape. -/
abbrev ArgShape : Shape := ⟨5, ![32, 3, 16, 128, 128]⟩

/-- THE RESULT both programs compute: the total of the term over all pairs of entries of the two arguments. -/
def klTotal (a b : ArgShape.Idx → EReal) : EReal := ∑ i, kl (a i) (b i)

/-! ## Re-laying an array does not change the sum of its entries -/

/-- A sum over the index set of one shape, of a function read through the row-major matching with another shape of as many
    elements, is the sum over that other shape's index set. -/
theorem sum_reshape {M : Type*} [AddCommMonoid M] {s s' : Shape} (h : s'.numel = s.numel) (f : s.Idx → M) :
    ∑ j : s'.Idx, f (Shape.reshapeEquiv h j) = ∑ i : s.Idx, f i :=
  Equiv.sum_comp (Shape.reshapeEquiv h) f

/-! ## 1536 rows are twelve blocks of 128 rows -/

/-- Row `a` of block `t` is row `128 t + a`. -/
def blockRow (t : Fin 12) (a : Fin 128) : Fin 1536 := ⟨t.val * 128 + a.val, by have := t.isLt; have := a.isLt; omega⟩

/-- The 1536 rows are the twelve blocks' rows, each once. -/
def rowsEquiv : Fin 12 × Fin 128 ≃ Fin 1536 where
  toFun p := blockRow p.1 p.2
  invFun r := (⟨r.val / 128, by have := r.isLt; omega⟩, ⟨r.val % 128, by omega⟩)
  left_inv p := by
    obtain ⟨t, a⟩ := p
    have ht := t.isLt; have ha := a.isLt
    refine Prod.ext (Fin.ext ?_) (Fin.ext ?_)
    · show (t.val * 128 + a.val) / 128 = t.val; omega
    · show (t.val * 128 + a.val) % 128 = a.val; omega
  right_inv r := by
    apply Fin.ext
    show r.val / 128 * 128 + r.val % 128 = r.val; omega

/-- So a sum over the rows is the sum over the blocks of the sums over each block's rows. -/
theorem sum_rows {M : Type*} [AddCommMonoid M] (h : Fin 1536 → M) :
    ∑ r, h r = ∑ t : Fin 12, ∑ a : Fin 128, h (blockRow t a) := by
  rw [← Equiv.sum_comp rowsEquiv h, Fintype.sum_prod_type]
  rfl

/-- The index, in the 1536 x 16384 array, of entry `j` of row block `t`. -/
def blockIdx (t : Fin 12) (j : (⟨2, ![128, 16384]⟩ : Shape).Idx) : (⟨2, ![1536, 16384]⟩ : Shape).Idx :=
  ix2 (blockRow t (j 0)) (j 1)

/-- A sum over the 1536 x 16384 index set is the sum over the twelve row blocks of the sums over each 128 x 16384 block. -/
theorem sum_blocks {M : Type*} [AddCommMonoid M] (g : (⟨2, ![1536, 16384]⟩ : Shape).Idx → M) :
    ∑ r, g r = ∑ t : Fin 12, ∑ j : (⟨2, ![128, 16384]⟩ : Shape).Idx, g (blockIdx t j) := by
  rw [sum_idx2, sum_rows]
  refine Finset.sum_congr rfl fun t _ => ?_
  rw [sum_idx2]
  rfl

/-! ## A running total -/

/-- A total that starts at the first term and then adds the next term at each step is, after step `n`, the sum of the
    terms up to `n`. -/
theorem running_total {M : Type*} [AddCommMonoid M] (s : ℕ → M) (acc : ℕ → M) (h0 : acc 0 = s 0)
    (hs : ∀ n, acc (n + 1) = acc n + s (n + 1)) (n : ℕ) : acc n = ∑ k ∈ Finset.range (n + 1), s k := by
  induction n with
  | zero => rw [h0, Finset.sum_range_one]
  | succ n ih => rw [hs, ih, Finset.sum_range_succ _ (n + 1)]

end Cert.SumLaw

end
-- ==== Proof.Bridge.lean ====
/-
  The idealized kernel's result is the total of the Kullback–Leibler term over all pairs of entries.

  Read over the extended reals:
  * the body's partial sum of two blocks is the sum, over the block's 128 x 16384 entries, of the term `kl` of the two
    blocks' entries (its reduction to one element is the total over the block re-laid 1 x 128 x 16384, and re-laying is a
    bijection of indices); a later point's payload is what the block held plus that partial sum;
  * so the running total after point `n` is the sum over the points up to `n` of their blocks' sums;
  * entry `j` of the block at point `t` is the entry of the re-laid argument at row `128 t + j₀`, column `j₁`;
  * the twelve blocks are the whole 1536 x 16384 array, each entry once, and the re-laid argument is the argument read in
    row-major order: the grand total is the total over the argument's own index set.
-/
import proofs.«154878_g21354577395725_cont_8to1_745_3_alg».proof.Proof.KernelValue
import proofs.«154878_g21354577395725_cont_8to1_745_3_alg».proof.Proof.SumLaw
import Idealize.ShloMosaic.Lib.Pipeline.Value
import Idealize.ShloMosaic.PureOps.Ideal.Laws
import Idealize.ShloMosaic.Lib.StableHlo.Run
import Idealize.ShloMosaic.Lib.ValueIdx

set_option maxRecDepth 16384

noncomputable section

open scoped BigOperators

namespace Cert.KernelIdeal.Bridge

open Cert.KernelIdeal Cert.KernelIdeal.Gen Cert.KernelIdeal.Body Cert.KernelIdeal.RunValue Cert.SumLaw
open Idealize.ShloMosaic Idealize.ShloMosaic.TcCoe Idealize.SL.Sem Idealize.ShloMosaic.StableHlo Idealize.ShloMosaic.ValueIdx
open Idealize.ShloMosaic.Pipeline (Dat Cfg Window)

/-! ## The body's payloads, read -/

/-- The term of two blocks, entry by entry. -/
def klVec (x y : FVec Ideal S128x16384 .f32) : FVec Ideal S128x16384 .f32 := fun j => kl (x j) (y j)

/-- The body's entrywise arithmetic on two blocks is the term, entry by entry. -/
theorem term_eq (x y : FVec Ideal S128x16384 .f32) :
    addf (F := Ideal) (mulf x (log (addf (divf x y) (broadcast S128x16384 (Scalar.ofBits .f32 0x2EDBE6FF#32)))))
      (mulf (subf (broadcast S128x16384 (Scalar.ofBits .f32 0x3F800000#32)) x)
        (log (addf (divf (subf (broadcast S128x16384 (Scalar.ofBits .f32 0x3F800000#32)) x)
          (subf (broadcast S128x16384 (Scalar.ofBits .f32 0x3F800000#32)) y))
          (broadcast S128x16384 (Scalar.ofBits .f32 0x2EDBE6FF#32)))))
      = klVec x y := by
  funext j
  rfl

/-- The reduction of a 1 x 128 x 16384 vector to one element is the total of its entries. -/
theorem reduce_total (v : FVec Ideal S1x128x16384 .f32) (hφ : FKind.Formats .f32)
    (hacc : (0x00000000#32 : BitVec 32) = FKind.add.neutral .f32 hφ) (j : S1.Idx) :
    multiReduction .add [1, 2] S1 v 0x00000000#32 reduces_S1x128x16384_S1 hφ hacc j = ∑ i : S1x128x16384.Idx, v i :=
  Ideal.multiReduction_add_total v _ reduces_S1x128x16384_S1 (fun b => match b with | ⟨0, _⟩ => rfl) hφ hacc j

/-- The block's partial sum: the total of the term over the block's entries (the block is re-laid 1 x 128 x 16384 and
    reduced to one element; re-laying is a bijection of indices). -/
theorem pay1_apply (x y : Vec Ideal S128x16384 .f32) (i : S1x1.Idx) :
    k0_pay1 (F := Ideal) x y i = ∑ j : S128x16384.Idx, klVec x y j := by
  unfold k0_pay1
  simp only [shapeCast_self]
  rw [term_eq x y, broadcast_apply]
  unfold extractAt shapeCast
  erw [reduce_total]
  exact sum_reshape shapeCasts_S128x16384_S1x128x16384 (klVec x y)

/-- A later point adds the block's partial sum to what the output block held. -/
theorem pay2_apply (x y : Vec Ideal S128x16384 .f32) (acc : Vec Ideal S1x1 .f32) (i : S1x1.Idx) :
    k0_pay2 (F := Ideal) x y acc i = acc i + k0_pay1 (F := Ideal) x y i := by
  unfold k0_pay2
  simp only [shapeCast_self]
  rfl

variable (m : (ℓ : Loc nD τ sig) → Buf (Elt Ideal) ℓ) (ρ : Dev nD → PrngReg)

/-! ## The blocks and the re-laid arguments, at their literal types -/

/-- The two input blocks at point `t`, -/
abbrev xblk (c : Dev nD) (t : Fin cfg0.N) : Vec Ideal S128x16384 .f32 := iblk m c 0 t
abbrev yblk (c : Dev nD) (t : Fin cfg0.N) : Vec Ideal S128x16384 .f32 := iblk m c 1 t
/-- and the two re-laid arguments as the region finds them. -/
abbrev xarr (c : Dev nD) : Vec Ideal S1536x16384 .f32 := V m c main_v0
abbrev yarr (c : Dev nD) : Vec Ideal S1536x16384 .f32 := V m c main_v1

/-- The sum of the term over the blocks of point `k` (zero past the grid). -/
def blockTerm (c : Dev nD) (k : ℕ) : EReal :=
  if h : k < cfg0.N then ∑ j : S128x16384.Idx, klVec (xblk m c ⟨k, h⟩) (yblk m c ⟨k, h⟩) j else 0

/-! ## The running total is the sum of the blocks' sums -/

theorem accAt_eq (c : Dev nD) : ∀ (n : ℕ) (hn : n < cfg0.N),
    accAt m c n hn i00 = ∑ k ∈ Finset.range (n + 1), blockTerm m c k
  | 0, hn => by
    rw [Finset.sum_range_one, blockTerm, dif_pos hn]
    exact (congrFun (accAt_first m c ⟨0, hn⟩ rfl) i00).trans (pay1_apply (xblk m c ⟨0, hn⟩) (yblk m c ⟨0, hn⟩) i00)
  | n + 1, hn => by
    rw [Finset.sum_range_succ, ← accAt_eq c n (Nat.lt_of_succ_lt hn), blockTerm, dif_pos hn]
    exact (congrFun (accAt_later m c ⟨n + 1, hn⟩ (Nat.succ_ne_zero n)) i00).trans
      ((pay2_apply (xblk m c ⟨n + 1, hn⟩) (yblk m c ⟨n + 1, hn⟩) (accAt m c n (Nat.lt_of_succ_lt hn)) i00).trans
        (congrArg (accAt m c n (Nat.lt_of_succ_lt hn) i00 + ·) (pay1_apply (xblk m c ⟨n + 1, hn⟩) (yblk m c ⟨n + 1, hn⟩) i00)))

/-! ## A block's entry is an entry of the re-laid argument -/

/-- The printed index maps over the grid: both inputs' blocks are at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- A grid point as one of the twelve row blocks. -/
def blockOf (t : Fin cfg0.N) : Fin 12 := ⟨t.val, lt_of_lt_of_eq t.isLt (show cfg0.N = 12 from N_0)⟩

theorem xblk_apply (c : Dev nD) (t : Fin cfg0.N) (j : S128x16384.Idx) :
    xblk m c t j = xarr m c (blockIdx (blockOf t) j) := by
  show V m c main_v0 (((cfg0.win 0).blk t).view.emb j) = V m c main_v0 (blockIdx (blockOf t) j)
  obtain ⟨e0, e1, e2, e3⟩ := idx_facts t
  refine congrArg (V m c main_v0) (funext fun a => Fin.ext ?_)
  match a with
  | ⟨0, _⟩ => show win0_0.index t (0 : Fin 2) * 128 + 1 * (j 0).val = t.val * 128 + (j 0).val; omega
  | ⟨1, _⟩ => show win0_0.index t (1 : Fin 2) * 16384 + 1 * (j 1).val = (j 1).val; omega

theorem yblk_apply (c : Dev nD) (t : Fin cfg0.N) (j : S128x16384.Idx) :
    yblk m c t j = yarr m c (blockIdx (blockOf t) j) := by
  show V m c main_v1 (((cfg0.win 1).blk t).view.emb j) = V m c main_v1 (blockIdx (blockOf t) j)
  obtain ⟨e0, e1, e2, e3⟩ := idx_facts t
  refine congrArg (V m c main_v1) (funext fun a => Fin.ext ?_)
  match a with
  | ⟨0, _⟩ => show win0_1.index t (0 : Fin 2) * 128 + 1 * (j 0).val = t.val * 128 + (j 0).val; omega
  | ⟨1, _⟩ => show win0_1.index t (1 : Fin 2) * 16384 + 1 * (j 1).val = (j 1).val; omega

/-! ## The re-laid arguments are the arguments in row-major order -/

theorem xarr_eq (c : Dev nD) :
    xarr m c = shapeCast S1536x16384 (m ((c : Thread nD τ).loc main_arg0)) shapeCasts_S32x3x16x128x128_S1536x16384 := by
  show StableHlo.after hostOps0 (fun b => m (c, b)) (Proc.devRef .tc main_v0) = _
  after_results
  rfl

theorem yarr_eq (c : Dev nD) :
    yarr m c = shapeCast S1536x16384 (m ((c : Thread nD τ).loc main_arg1)) shapeCasts_S32x3x16x128x128_S1536x16384 := by
  show StableHlo.after hostOps0 (fun b => m (c, b)) (Proc.devRef .tc main_v1) = _
  after_results
  rfl

/-! ## The grand total -/

/-- THE KERNEL'S RESULT: the running total after the last point is the total of the term over all pairs of entries of the
    two arguments. -/
theorem total_eq (c : Dev nD) :
    total m c i00 = klTotal (m ((c : Thread nD τ).loc main_arg0)) (m ((c : Thread nD τ).loc main_arg1)) := by
  have hN : cfg0.N = 12 := N_0
  -- the running total is the sum over the twelve points of their blocks' sums,
  have h1 : total m c i00 = ∑ t : Fin 12, blockTerm m c t.val :=
    (accAt_eq m c 11 (by decide)).trans (Fin.sum_univ_eq_sum_range (blockTerm m c) 12).symm
  -- each block's sum read off the re-laid arguments,
  have h2 : ∀ t : Fin 12, blockTerm m c t.val
      = ∑ j : S128x16384.Idx, kl (xarr m c (blockIdx t j)) (yarr m c (blockIdx t j)) := fun t => by
    have ht : t.val < cfg0.N := lt_of_lt_of_eq t.isLt hN.symm
    rw [blockTerm, dif_pos ht]
    exact Finset.sum_congr rfl fun j _ => by
      show kl (xblk m c ⟨t.val, ht⟩ j) (yblk m c ⟨t.val, ht⟩ j) = _
      rw [xblk_apply, yblk_apply]; rfl
  -- the blocks are the whole re-laid array,
  have h3 : (∑ t : Fin 12, ∑ j : S128x16384.Idx, kl (xarr m c (blockIdx t j)) (yarr m c (blockIdx t j)))
      = ∑ r : S1536x16384.Idx, kl (xarr m c r) (yarr m c r) :=
    (sum_blocks (fun r => kl (xarr m c r) (yarr m c r))).symm
  -- and the re-laid array is the argument, entry for entry.
  rw [h1, Finset.sum_congr rfl (fun t _ => h2 t), h3, xarr_eq, yarr_eq]
  exact sum_reshape shapeCasts_S32x3x16x128x128_S1536x16384
    (fun i => kl (m ((c : Thread nD τ).loc main_arg0) i) (m ((c : Thread nD τ).loc main_arg1) i))

/-- THE RUN, READ: the idealized kernel's program ends with its result at the total, the arguments unchanged. -/
theorem run : θ_run defs (onTc (τ := τ) (main (F := Ideal))) ⟨m, fun _ => 0, ρ⟩ fun r => ∀ c : Dev nD,
      r.2.mem ((c.tc : Thread nD τ).loc main_v3)
        = (fun _ => klTotal (m ((c.tc : Thread nD τ).loc main_arg0)) (m ((c.tc : Thread nD τ).loc main_arg1)) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun _ => total_eq m c), (h c).2⟩) (RunValue.run m ρ)

end Cert.KernelIdeal.Bridge

end
-- ==== Proof.RefValue.lean ====
/-
  The reference's result is the total of the Kullback–Leibler term over all pairs of entries.

  The reference's program is a chain of whole-array operations; read at one index, the array it sums holds the term
  `kl` of the two arguments' entries there (its divisions, logarithms, products and sums are the extended reals' own, and
  its literals are the two words `kl` is written with). Its last operation adds all entries to the literal zero.
-/
import proofs.«154878_g21354577395725_cont_8to1_745_3_alg».proof.Proof.Gen.ReferenceIdeal.Read
import proofs.«154878_g21354577395725_cont_8to1_745_3_alg».proof.Proof.SumLaw
import Idealize.ShloMosaic.PureOps.Ideal.Laws

noncomputable section

open scoped BigOperators

namespace Cert.ReferenceIdeal.RefValue

open Cert.ReferenceIdeal Cert.ReferenceIdeal.Read Cert.SumLaw
open Idealize.ShloMosaic Idealize.ShloMosaic.TcCoe

/-- The summed array at an index is the term of the arguments' entries there. -/
theorem summand (x0 x1 : (⟨S32x3x16x128x128, .f32⟩ : BufTy).Contents (Elt Ideal)) (i : S32x3x16x128x128.Idx) :
    val_main_v14 (F := Ideal) x0 x1 i = kl (x0 i) (x1 i) := by
  rw [val_main_v14_apply, val_main_v11_apply, val_main_v13_apply, val_main_v10_apply, val_main_v12_apply,
    val_main_v6_apply, val_main_v9_apply, val_main_v4_apply, val_main_v7_apply, val_main_v1_apply, val_main_v3_apply,
    val_main_v0_apply, val_main_v2_apply, val_main_v5_apply, val_main_v8_apply,
    val_main_cst_apply, val_main_cst_0_apply, val_main_cst_1_apply, val_main_cst_2_apply]
  rfl

/-- The reference's result: the total (its initial value, the literal zero, adds nothing). -/
theorem result_eq (x0 x1 : (⟨S32x3x16x128x128, .f32⟩ : BufTy).Contents (Elt Ideal)) :
    val_main_v15 (F := Ideal) x0 x1 = fun _ => klTotal x0 x1 := by
  funext i
  rw [val_main_v15_apply, val_main_cst_3_apply]
  show Ideal.ofBits .f32 0x00000000#32 + _ = _
  rw [Ideal.ofBits_zero_f32, zero_add]
  exact Finset.sum_congr rfl fun j _ => summand x0 x1 j

end Cert.ReferenceIdeal.RefValue

end
-- ==== Proof.lean ====
/-
  The certificate: the Pallas kernel that totals the Bernoulli Kullback–Leibler term of two probability maps block by
  block computes, over the extended reals, what the jnp reference computes.

  Both programs total, over all pairs (p, q) of entries of the two arguments,
      kl p q = p * log (p / q + e) + (1 - p) * log ((1 - p) / (1 - q) + e).
  The reference sums over the rank-5 index set at once, starting from zero. The kernel re-lays each argument as
  1536 x 16384, walks twelve blocks of 128 rows, sums each block, and keeps a running total in a one-element output block:
  set at the first grid point, added to at every later one, written back after the last, then re-laid as a scalar.
  Addition of extended reals is commutative and associative, so the two totals are one sum regrouped (SumLaw); no
  finiteness of the inputs is used.

  * the frames of the kernel's program (word-level and idealized): the body's run at the first point and at a later
    point, the running total as the pipeline's proof data, the body obligation and the launch (BodyBits, BodyIdeal);
  * the frame of the reference: its run with the result dropped;
  * the idealization rewrote nothing, so `preserves` has nothing to state;
  * the value claim: the kernel's result is the total (KernelValue, Bridge), and so is the reference's (RefValue).
-/
import proofs.«154878_g21354577395725_cont_8to1_745_3_alg».proof.Defs
import proofs.«154878_g21354577395725_cont_8to1_745_3_alg».proof.Proof.Gen.Kernel
import proofs.«154878_g21354577395725_cont_8to1_745_3_alg».proof.Proof.Gen.KernelIdeal
import proofs.«154878_g21354577395725_cont_8to1_745_3_alg».proof.Proof.Gen.ReferenceIdeal
import proofs.«154878_g21354577395725_cont_8to1_745_3_alg».proof.Proof.Gen.ReferenceIdeal.Run
import proofs.«154878_g21354577395725_cont_8to1_745_3_alg».proof.Proof.Gen.ReferenceIdeal.Read
import proofs.«154878_g21354577395725_cont_8to1_745_3_alg».proof.Proof.Gen.Pre_finite_inputs
import proofs.«154878_g21354577395725_cont_8to1_745_3_alg».proof.Proof.BodyBits
import proofs.«154878_g21354577395725_cont_8to1_745_3_alg».proof.Proof.Bridge
import proofs.«154878_g21354577395725_cont_8to1_745_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Body.frame m ρ

/-- So does the idealized one (the same text, read at the extended reals). -/
theorem frame_kernelIdeal : Cert.frame_KernelIdeal := fun m ρ _ => Cert.KernelIdeal.Body.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the total of the term over all pairs of entries. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
